-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x256 .f32) (main_arg1 : FVec F S16384x16384 .f32) (main_arg2 : FVec F S256x256 .f32) (main_arg3 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S2048x256 : Shape := ⟨2, ![2048, 256]⟩
abbrev S1x256 : Shape := ⟨2, ![1, 256]⟩
abbrev S128x16384 : Shape := ⟨2, ![128, 16384]⟩
abbrev S128x256 : Shape := ⟨2, ![128, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S256, .f32⟩
  | .hbm, ⟨4, _⟩ => ⟨S16384x256, .bf16⟩
  | .hbm, ⟨5, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256, .f32⟩
  | .local _ .vmem, ⟨4, _⟩ => ⟨S2048x256, .bf16⟩
  | .local _ .vmem, ⟨5, _⟩ => ⟨S2048x256, .bf16⟩
  | .local _ .vmem, ⟨6, _⟩ => ⟨S128x16384, .f32⟩
  | .local _ .vmem, ⟨7, _⟩ => ⟨S128x16384, .f32⟩
  | .local _ .vmem, ⟨8, _⟩ => ⟨S16384x256, .bf16⟩
  | .local _ .vmem, ⟨9, _⟩ => ⟨S128x256, .f32⟩
  | .local _ .vmem, ⟨10, _⟩ => ⟨S128x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  inb_S128x16384_S128x16384_0_0 : ∀ a, (![0, 0] : Fin 2 → Nat) a + S128x16384.size a ≤ S128x16384.size a
  h_S128x16384 : 0 < S128x16384.numel
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S128x256_S128x256_0_0 : ∀ a, (![0, 0] : Fin 2 → Nat) a + S128x256.size a ≤ S128x256.size a
  h_S128x256 : 0 < S128x256.numel
  dot_S2048x256_S256x256_S2048x256_1_1_0_0_n_n_wf : DotDims.WF S2048x256 S256x256 S2048x256 [1] [1] [0] [0] [] []
  dot_S128x16384_S16384x256_S128x256_1_0_0_1_n_n_wf : DotDims.WF S128x16384 S16384x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .bf16 = 32 ∨ (Rect.block (s := S16384x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S16384x256.size a
  hwx1_2 : ∀ i : grid1.Coords, EltTy.bits .f32 = 32 ∨ (Rect.block (s := S16384x256) S128x256.size (cc1_transform_2 i) (hinb1_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S128x16384_S16384x256_S128x256_1_0_0_1_n_n : DotDims S128x16384 S16384x256 S128x256 where
  lhsContracting := [1]
  rhsContracting := [0]
  lhsNonContracting := [0]
  rhsNonContracting := [1]
  lhsBatch := []
  rhsBatch := []
  wf := dot_S128x16384_S16384x256_S128x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x256_S256x256_S16384x256_1_1_0_0_n_n_wf : DotDims.WF S16384x256 S256x256 S16384x256 [1] [1] [0] [0] [] []
  dot_S16384x16384_S16384x256_S16384x256_1_0_0_1_n_n_wf : DotDims.WF S16384x16384 S16384x256 S16384x256 [1] [0] [0] [1] [] []

variable [Facts₀]

def dot_S16384x256_S256x256_S16384x256_1_1_0_0_n_n : DotDims S16384x256 S256x256 S16384x256 where
  lhsContracting := [1]
  rhsContracting := [1]
  lhsNonContracting := [0]
  rhsNonContracting := [0]
  lhsBatch := []
  rhsBatch := []
  wf := dot_S16384x256_S256x256_S16384x256_1_1_0_0_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.Spec.lean ====
/-
  The mathematics of the simplicial message-passing block, stated once over the extended reals.

  A node's features are first projected, `h[n, e] = (∑ d, x[n, d] · W[e, d]) + b[e]` (the weight is contracted on ITS
  second axis: `x · Wᵀ`), and then aggregated over the dense adjacency, `out[n, e] = ∑ k, adj[n, k] · h[k, e]`.
  Both programs compute exactly this pair of sums; nothing here asks for finiteness, since no term is moved across a sum.
-/
import Idealize.ShloMosaic.PureOps.Ideal
import Idealize.ShloMosaic.Lib.ValueIdx

noncomputable section

open scoped BigOperators

namespace Cert.MessagePassing

open Idealize.ShloMosaic Idealize.ShloMosaic.ValueIdx

/-- The projected features: row `n`, feature `e` is the inner product of row `n` of `x` with row `e` of `W`, plus `b e`. -/
def proj (x : (⟨2, ![16384, 256]⟩ : Shape).Idx → EReal) (W : (⟨2, ![256, 256]⟩ : Shape).Idx → EReal)
    (b : (⟨1, ![256]⟩ : Shape).Idx → EReal) : (⟨2, ![16384, 256]⟩ : Shape).Idx → EReal :=
  fun i => (∑ d : Fin 256, x (ix2 (i 0) d) * W (ix2 (i 1) d)) + b (ix1 (i 1))

/-- The aggregated features: row `n`, feature `e` is the inner product of row `n` of the adjacency with column `e` of `h`. -/
def agg (adj : (⟨2, ![16384, 16384]⟩ : Shape).Idx → EReal) (h : (⟨2, ![16384, 256]⟩ : Shape).Idx → EReal) :
    (⟨2, ![16384, 256]⟩ : Shape).Idx → EReal :=
  fun i => ∑ k : Fin 16384, adj (ix2 (i 0) k) * h (ix2 k (i 1))

theorem proj_apply (x : (⟨2, ![16384, 256]⟩ : Shape).Idx → EReal) (W : (⟨2, ![256, 256]⟩ : Shape).Idx → EReal)
    (b : (⟨1, ![256]⟩ : Shape).Idx → EReal) (n : Fin 16384) (e : Fin 256) :
    proj x W b (ix2 n e) = (∑ d : Fin 256, x (ix2 n d) * W (ix2 e d)) + b (ix1 e) := rfl

theorem agg_apply (adj : (⟨2, ![16384, 16384]⟩ : Shape).Idx → EReal) (h : (⟨2, ![16384, 256]⟩ : Shape).Idx → EReal)
    (n : Fin 16384) (e : Fin 256) :
    agg adj h (ix2 n e) = ∑ k : Fin 16384, adj (ix2 n k) * h (ix2 k e) := rfl

end Cert.MessagePassing

end
-- ==== Proof.RefIsSpec.lean ====
/-
  The reference computes the message-passing block: read index by index at the extended reals, its last stage — the
  adjacency's `dot_general` with the biased projection — is `agg adj (proj x W b)`.

  The outer `dot_general` contracts the adjacency's second axis with the projection's first, so entry (n, e) is the sum
  over k of adj (n, k) times the projection at (k, e); the projection's own `dot_general` contracts the second axis of
  `x` with the second axis of `W`, and the bias reaches (k, e) through two broadcasts that keep only the feature
  coordinate `e`.
-/
import proofs.«154886_j58222576664706_1_alg».proof.Proof.Gen.ReferenceIdeal.Run
import proofs.«154886_j58222576664706_1_alg».proof.Proof.Gen.ReferenceIdeal.Read
import proofs.«154886_j58222576664706_1_alg».proof.Proof.Spec

noncomputable section

open scoped BigOperators

namespace Cert.ReferenceIdeal.RefValue

open Cert.ReferenceIdeal Cert.ReferenceIdeal.Gen Cert.ReferenceIdeal.Read Cert.MessagePassing
open Idealize.ShloMosaic Idealize.ShloMosaic.ValueIdx

/-- The operand indices of the outer product at output (n, e) and contraction position k: (n, k) and (k, e). -/
theorem lidx_outer (n : Fin 16384) (e : Fin 256) (k : Fin 16384) : lidx_main_v4 (ix2 n e) k = ix2 n k :=
  funext fun a => by match a with | ⟨0, _⟩ => rfl | ⟨1, _⟩ => rfl
theorem ridx_outer (n : Fin 16384) (e : Fin 256) (k : Fin 16384) : ridx_main_v4 (ix2 n e) k = ix2 k e :=
  funext fun a => by match a with | ⟨0, _⟩ => rfl | ⟨1, _⟩ => rfl

/-- The operand indices of the projection's product at output (k, e) and contraction position d: (k, d) and (e, d). -/
theorem lidx_inner (k : Fin 16384) (e : Fin 256) (d : Fin 256) : lidx_main_v0 (ix2 k e) d = ix2 k d :=
  funext fun a => by match a with | ⟨0, _⟩ => rfl | ⟨1, _⟩ => rfl
theorem ridx_inner (k : Fin 16384) (e : Fin 256) (d : Fin 256) : ridx_main_v0 (ix2 k e) d = ix2 e d :=
  funext fun a => by match a with | ⟨0, _⟩ => rfl | ⟨1, _⟩ => rfl

/-- The bias's two broadcasts read at (k, e) keep the feature coordinate alone. -/
theorem idx_bias (k : Fin 16384) (e : Fin 256) : idx_main_v1 (idx_main_v2 (ix2 k e)) = ix1 e :=
  funext fun a => by match a with | ⟨0, _⟩ => rfl

/-- The biased projection stage at (k, e). -/
theorem proj_stage (x0 : (⟨S16384x256, .f32⟩ : BufTy).Contents (Elt Ideal)) (x2 : (⟨S256x256, .f32⟩ : BufTy).Contents (Elt Ideal))
    (x3 : (⟨S256, .f32⟩ : BufTy).Contents (Elt Ideal)) (k : Fin 16384) (e : Fin 256) :
    val_main_v3 (F := Ideal) x0 x2 x3 (ix2 k e) = proj x0 x2 x3 (ix2 k e) := by
  rw [val_main_v3_apply, val_main_v0_apply, val_main_v2_apply, val_main_v1_apply, proj_apply, idx_bias]
  simp only [lidx_inner, ridx_inner]
  rfl

/-- The reference's last stage is the aggregation of the projection. -/
theorem result_eq (x0 : (⟨S16384x256, .f32⟩ : BufTy).Contents (Elt Ideal)) (x1 : (⟨S16384x16384, .f32⟩ : BufTy).Contents (Elt Ideal))
    (x2 : (⟨S256x256, .f32⟩ : BufTy).Contents (Elt Ideal)) (x3 : (⟨S256, .f32⟩ : BufTy).Contents (Elt Ideal)) :
    val_main_v4 (F := Ideal) x0 x1 x2 x3 = agg x1 (proj x0 x2 x3) := by
  funext i
  obtain ⟨n, e, rfl⟩ : ∃ (n : Fin 16384) (e : Fin 256), i = ix2 n e := ⟨i 0, i 1, eq_ix2 i⟩
  rw [val_main_v4_apply, agg_apply]
  refine Finset.sum_congr rfl fun k _ => ?_
  rw [lidx_outer, ridx_outer, proj_stage]

end Cert.ReferenceIdeal.RefValue

end
-- ==== Proof.LinearBlock.lean ====
/-
  The first kernel region computes the projection, block of 2048 rows by block.

  At grid point `t` the body loads rows `2048·t … 2048·t + 2047` of `x`, all of `W` and all of `b`, and stores, at (p, q) of
  its output block, the inner product of row p of the x-block with row q of `W` (the matrix product contracts the second
  axis of both operands into a zero accumulator), plus `b q` (the bias made a one-row matrix and repeated down the rows).
  The changes of float format around the product are the identity on extended reals. So what point `t` writes back is
  block `t` of `proj x W b`; the eight blocks tile the 16384 rows (row r lies in block r / 2048), hence the projected
  array after the region is `proj x W b` whole — for whatever contents `V` the region is entered from.
-/
import proofs.«154886_j58222576664706_1_alg».proof.Proof.Gen.KernelIdeal.Frame
import proofs.«154886_j58222576664706_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Linear

open Cert.KernelIdeal Cert.KernelIdeal.Gen Cert.MessagePassing
open Idealize.ShloMosaic Idealize.ShloMosaic.TcCoe Idealize.SL.Sem Idealize.ShloMosaic.ValueIdx
open Idealize.ShloMosaic.Pipeline (Dat Cfg Window)

/-! ## The body's product and payload at an index -/

/-- The product's left operand index at output (p, q), contraction position d, is (p, d): axis 0 is kept, -/
theorem lhs_axis0 (i : S2048x256.Idx) (k : dot_S2048x256_S256x256_S2048x256_1_1_0_0_n_n.contr.Idx) :
    (dot_S2048x256_S256x256_S2048x256_1_1_0_0_n_n.lhsIdx i k 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
/-- axis 1 is the contracted one. -/
theorem lhs_axis1 (i : S2048x256.Idx) (k : dot_S2048x256_S256x256_S2048x256_1_1_0_0_n_n.contr.Idx) :
    (dot_S2048x256_S256x256_S2048x256_1_1_0_0_n_n.lhsIdx i k 1).val = (k ⟨0, by decide⟩).val :=
  dot_S2048x256_S256x256_S2048x256_1_1_0_0_n_n.lhsIdx_val_of_single rfl i k
/-- The right operand index is (q, d): the weight's axis 0 is the output's feature axis, -/
theorem rhs_axis0 (i : S2048x256.Idx) (k : dot_S2048x256_S256x256_S2048x256_1_1_0_0_n_n.contr.Idx) :
    (dot_S2048x256_S256x256_S2048x256_1_1_0_0_n_n.rhsIdx i k 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
/-- and its axis 1 is contracted. -/
theorem rhs_axis1 (i : S2048x256.Idx) (k : dot_S2048x256_S256x256_S2048x256_1_1_0_0_n_n.contr.Idx) :
    (dot_S2048x256_S256x256_S2048x256_1_1_0_0_n_n.rhsIdx i k 1).val = (k ⟨0, by decide⟩).val :=
  dot_S2048x256_S256x256_S2048x256_1_1_0_0_n_n.rhsIdx_val_of_single rfl i k

/-- The body's matrix product into the zero accumulator, at (p, q): the inner product of row p of the left operand with
    row q of the right one. -/
theorem product_apply (a : FVec Ideal S2048x256 .bf16) (w : FVec Ideal S256x256 .bf16) (p : Fin 2048) (q : Fin 256) :
    matmul dot_S2048x256_S256x256_S2048x256_1_1_0_0_n_n none a w (constant (F := Ideal) S2048x256 .f32 0x00000000#32) (ix2 p q)
      = ∑ d : Fin 256, a (ix2 p d) * w (ix2 q d) := by
  simp only [matmul]
  rw [Ideal.matmul_constant_zero_apply, ← Equiv.sum_comp (contrEquiv1 dot_S2048x256_S256x256_S2048x256_1_1_0_0_n_n 256 rfl rfl).symm]
  refine Finset.sum_congr rfl fun d _ => ?_
  have hd := contrEquiv1_symm_val dot_S2048x256_S256x256_S2048x256_1_1_0_0_n_n 256 rfl rfl d
  have el : dot_S2048x256_S256x256_S2048x256_1_1_0_0_n_n.lhsIdx (ix2 p q) ((contrEquiv1 dot_S2048x256_S256x256_S2048x256_1_1_0_0_n_n 256 rfl rfl).symm d) = ix2 p d := funext fun ax => Fin.ext (by
    match ax with
    | ⟨0, _⟩ => exact lhs_axis0 _ _
    | ⟨1, _⟩ => exact (lhs_axis1 _ _).trans hd)
  have er : dot_S2048x256_S256x256_S2048x256_1_1_0_0_n_n.rhsIdx (ix2 p q) ((contrEquiv1 dot_S2048x256_S256x256_S2048x256_1_1_0_0_n_n 256 rfl rfl).symm d) = ix2 q d := funext fun ax => Fin.ext (by
    match ax with
    | ⟨0, _⟩ => exact rhs_axis0 _ _
    | ⟨1, _⟩ => exact (rhs_axis1 _ _).trans hd)
  rw [el, er]

/-- What the body stores at (p, q) of its block, from the three loaded blocks. -/
theorem payload_apply (x0 : Vec Ideal S2048x256 .f32) (x1 : Vec Ideal S256x256 .f32) (x2 : Vec Ideal S256 .f32)
    (p : Fin 2048) (q : Fin 256) :
    k0_pay1 (F := Ideal) x0 x1 x2 (ix2 p q) = (∑ d : Fin 256, x0 (ix2 p d) * x1 (ix2 q d)) + x2 (ix1 q) := by
  unfold k0_pay1
  rw [truncf_apply, addf_apply, product_apply, broadcastTo_1b_ab_apply, shapeCast_a_1a_apply]
  rfl

/-- So if the x-block's row p is row r of an array `X`, the W-block is `Wt` and the b-block is `B`, the stored value at
    (p, q) is the projection of those arrays at (r, q). -/
theorem payload_eq_proj (x0 : Vec Ideal S2048x256 .f32) (x1 : Vec Ideal S256x256 .f32) (x2 : Vec Ideal S256 .f32)
    (X : (⟨2, ![16384, 256]⟩ : Shape).Idx → EReal) (Wt : (⟨2, ![256, 256]⟩ : Shape).Idx → EReal) (B : (⟨1, ![256]⟩ : Shape).Idx → EReal)
    (p : Fin 2048) (q : Fin 256) (r : Fin 16384)
    (h0 : ∀ d : Fin 256, x0 (ix2 p d) = X (ix2 r d)) (h1 : x1 = Wt) (h2 : x2 = B) :
    k0_pay1 (F := Ideal) x0 x1 x2 (ix2 p q) = proj X Wt B (ix2 r q) := by
  subst h1 h2
  rw [payload_apply, proj_apply]
  simp only [h0]

/-! ## The blocks at a grid point -/

theorem hz2 : (![0, 0] : Fin 2 → Nat) = fun _ => 0 := funext fun a => by fin_cases a <;> rfl
theorem hz1 : (![0] : Fin 1 → Nat) = fun _ => 0 := funext fun a => by fin_cases a; rfl

/-- The printed index maps over the eight points: the x-window and the output window move down the rows with the point,
    the weight and bias windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 8 := Nat.lt_of_lt_of_eq t.isLt N_0

/-- The array row that row p of point t's block is. -/
def row (t : Fin cfg0.N) (p : Fin 2048) : Fin 16384 := ⟨t.val * 2048 + p.val, by have := point_lt t; have := p.isLt; omega⟩

variable (V : (c : Dev nD) → (b : Ref sig .tc) → Buf (Elt Ideal) ((c : Thread nD τ).loc b))

/-- The three input blocks at point t, at their literal types. -/
abbrev xblk (c : Dev nD) (t : Fin cfg0.N) : Vec Ideal S2048x256 .f32 := iblk0 V c 0 t
abbrev wblk (c : Dev nD) (t : Fin cfg0.N) : Vec Ideal S256x256 .f32 := iblk0 V c 1 t
abbrev bblk (c : Dev nD) (t : Fin cfg0.N) : Vec Ideal S256 .f32 := iblk0 V c 2 t

/-- Row p of the x-block is row `row t p` of `x`. -/
theorem xblk_apply (c : Dev nD) (t : Fin cfg0.N) (p : Fin 2048) (d : Fin 256) :
    xblk V c t (ix2 p d) = V c main_arg0 (ix2 (row t p) d) := by
  show V c main_arg0 (((cfg0.win 0).blk t).view.emb (ix2 p d)) = _
  obtain ⟨e0, e1, -⟩ := idx_facts t
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 256 + 1 * d.val = d.val; rw [e1]; omega

/-- The weight block is the weight array. -/
theorem wblk_eq (c : Dev nD) (t : Fin cfg0.N) : wblk V c t = V c main_arg2 := by
  funext y
  show V c main_arg2 (((cfg0.win 1).blk t).view.emb y) = _
  obtain ⟨-, -, e0, e1, -⟩ := idx_facts t
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias block is the bias array. -/
theorem bblk_eq (c : Dev nD) (t : Fin cfg0.N) : bblk V c t = V c main_arg3 := by
  funext y
  show V c main_arg3 (((cfg0.win 2).blk t).view.emb y) = _
  obtain ⟨-, -, -, -, e0, -⟩ := idx_facts t
  refine congrArg _ (funext fun a => Fin.ext ?_)
  match a with
  | ⟨0, _⟩ => show win0_2.index t (0 : Fin 1) * 256 + 1 * (y 0).val = (y 0).val; rw [e0]; omega

/-- Entry (p, q) of the output block at point t sits at (row t p, q) of the projected array. -/
theorem out_emb (t : Fin cfg0.N) (p : Fin 2048) (q : Fin 256) :
    ((cfg0.win 3).blk t).view.emb (ix2 p q) = ix2 (row t p) q := by
  obtain ⟨-, -, -, -, -, e0, e1⟩ := idx_facts t
  refine funext fun a => Fin.ext ?_
  match a with
  | ⟨0, _⟩ => show win0_3.index t (0 : Fin 2) * 2048 + 1 * p.val = t.val * 2048 + p.val; rw [e0]; omega
  | ⟨1, _⟩ => show win0_3.index t (1 : Fin 2) * 256 + 1 * q.val = q.val; rw [e1]; omega

/-! ## What a point writes back, and the array after the region -/

/-- Point t writes back block t of the projection of the arrays the region was entered with. -/
theorem flushed_eq (c : Dev nD) (t : Fin cfg0.N) :
    (dat0 V c).flushed 3 t
      = ((cfg0.win 3).blk t).view.read (Elt Ideal) (proj (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S2048x256) hz2, View.ld_unit_zero (S := S256x256) hz2, View.ld_unit_zero (S := S256) hz1]
  funext j
  obtain ⟨p, q, rfl⟩ : ∃ (p : Fin 2048) (q : Fin 256), j = ix2 p q := ⟨j 0, j 1, eq_ix2 j⟩
  show k0_pay1 (F := Ideal) (xblk V c t) (wblk V c t) (bblk V c t) (ix2 p q)
    = proj (V c main_arg0) (V c main_arg2) (V c main_arg3) (((cfg0.win 3).blk t).view.emb (ix2 p q))
  rw [out_emb]
  exact payload_eq_proj (xblk V c t) (wblk V c t) (bblk V c t) (V c main_arg0) (V c main_arg2) (V c main_arg3) p q (row t p)
    (fun d => xblk_apply V c t p d) (wblk_eq V c t) (bblk_eq V c t)

/-- An index of the projected array lies in point t's block iff each coordinate lies in the block's range. -/
theorem mem_blk (t : Fin cfg0.N) (i : S16384x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v0).slice (win0_3.rect t)).set ↔ _
  rw [View.set_slice_whole, Rect.mem_set_unit]
  exact Iff.rfl

/-- Every row is in some point's block: row r in block r / 2048. -/
theorem cover (i : S16384x256.Idx) : ∃ t : Fin cfg0.N, (cfg0.win 3).flush t = true ∧ i ∈ ((cfg0.win 3).blk t).view.set := by
  have hi0 : (i 0).val < 16384 := (i 0).isLt
  have hi1 : (i 1).val < 256 := (i 1).isLt
  have ht : (i 0).val / 2048 < cfg0.N := by rw [show cfg0.N = 8 from N_0]; omega
  obtain ⟨-, -, -, -, -, e0, e1⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_3.index ⟨(i 0).val / 2048, ht⟩ (1 : Fin 2) * 256 ≤ (i 1).val ∧ (i 1).val < win0_3.index ⟨(i 0).val / 2048, ht⟩ (1 : Fin 2) * 256 + 256
    rw [e1]; omega

/-- The projected array after the region is the projection of the arrays the region was entered with. -/
theorem final (c : Dev nD) :
    (dat0 V c).arrAt 3 cfg0.N = proj (V c main_arg0) (V c main_arg2) (V c main_arg3) :=
  (dat0 V c).arrAt_eq_of_cover 3 _ (fun t _ => flushed_eq V c t) cover

end Cert.KernelIdeal.Linear

end
-- ==== Proof.AggBlock.lean ====
/-
  The second kernel region computes the aggregation, block of 128 rows by block.

  At grid point `t` the body loads rows `128·t … 128·t + 127` of the adjacency and the whole projected array `h`, and
  stores, at (p, q) of its output block, the inner product of row p of the adjacency block with column q of `h` (the
  matrix product contracts the left operand's second axis with the right operand's first, into a zero accumulator; the
  change of float format before it and the cast of `h` to its own shape are the identity). So what point `t` writes back
  is block `t` of `agg adj h`; the 128 blocks tile the 16384 rows (row r lies in block r / 128), hence the result array
  after the region is `agg adj h` whole — for whatever contents `V` the region is entered from.
-/
import proofs.«154886_j58222576664706_1_alg».proof.Proof.Gen.KernelIdeal.Frame
import proofs.«154886_j58222576664706_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Aggregate

open Cert.KernelIdeal Cert.KernelIdeal.Gen Cert.MessagePassing
open Idealize.ShloMosaic Idealize.ShloMosaic.TcCoe Idealize.SL.Sem Idealize.ShloMosaic.ValueIdx
open Idealize.ShloMosaic.Pipeline (Dat Cfg Window)

/-! ## The body's product at an index -/

/-- The product's left operand index at output (p, q), contraction position k, is (p, k): axis 0 is kept, -/
theorem lhs_axis0 (i : S128x256.Idx) (k : dot_S128x16384_S16384x256_S128x256_1_0_0_1_n_n.contr.Idx) :
    (dot_S128x16384_S16384x256_S128x256_1_0_0_1_n_n.lhsIdx i k 0).val = (i 0).val := by
  unfold DotDims.lhsIdx
  rw [dif_neg (show ¬(0 : Fin S128x16384.rank) ∈ dot_S128x16384_S16384x256_S128x256_1_0_0_1_n_n.lhsBatch by decide), dif_pos (show (0 : Fin S128x16384.rank) ∈ dot_S128x16384_S16384x256_S128x256_1_0_0_1_n_n.lhsNonContracting by decide)]
  rfl
/-- axis 1 is the contracted one. -/
theorem lhs_axis1 (i : S128x256.Idx) (k : dot_S128x16384_S16384x256_S128x256_1_0_0_1_n_n.contr.Idx) :
    (dot_S128x16384_S16384x256_S128x256_1_0_0_1_n_n.lhsIdx i k 1).val = (k ⟨0, by decide⟩).val :=
  dot_S128x16384_S16384x256_S128x256_1_0_0_1_n_n.lhsIdx_val_of_single rfl i k
/-- The right operand index is (k, q): its axis 0 is contracted, -/
theorem rhs_axis0 (i : S128x256.Idx) (k : dot_S128x16384_S16384x256_S128x256_1_0_0_1_n_n.contr.Idx) :
    (dot_S128x16384_S16384x256_S128x256_1_0_0_1_n_n.rhsIdx i k 0).val = (k ⟨0, by decide⟩).val :=
  dot_S128x16384_S16384x256_S128x256_1_0_0_1_n_n.rhsIdx_val_of_single rfl i k
/-- and its axis 1 is the output's feature axis. -/
theorem rhs_axis1 (i : S128x256.Idx) (k : dot_S128x16384_S16384x256_S128x256_1_0_0_1_n_n.contr.Idx) :
    (dot_S128x16384_S16384x256_S128x256_1_0_0_1_n_n.rhsIdx i k 1).val = (i 1).val := by
  unfold DotDims.rhsIdx
  rw [dif_neg (show ¬(1 : Fin S16384x256.rank) ∈ dot_S128x16384_S16384x256_S128x256_1_0_0_1_n_n.rhsBatch by decide), dif_pos (show (1 : Fin S16384x256.rank) ∈ dot_S128x16384_S16384x256_S128x256_1_0_0_1_n_n.rhsNonContracting by decide)]
  rfl

/-- The body's matrix product into the zero accumulator, at (p, q): the inner product of row p of the left operand with
    column q of the right one. -/
theorem product_apply (a : FVec Ideal S128x16384 .bf16) (h : FVec Ideal S16384x256 .bf16) (p : Fin 128) (q : Fin 256) :
    matmul dot_S128x16384_S16384x256_S128x256_1_0_0_1_n_n none a h (constant (F := Ideal) S128x256 .f32 0x00000000#32) (ix2 p q)
      = ∑ k : Fin 16384, a (ix2 p k) * h (ix2 k q) := by
  simp only [matmul]
  rw [Ideal.matmul_constant_zero_apply, ← Equiv.sum_comp (contrEquiv1 dot_S128x16384_S16384x256_S128x256_1_0_0_1_n_n 16384 rfl rfl).symm]
  refine Finset.sum_congr rfl fun k _ => ?_
  have hk := contrEquiv1_symm_val dot_S128x16384_S16384x256_S128x256_1_0_0_1_n_n 16384 rfl rfl k
  have el : dot_S128x16384_S16384x256_S128x256_1_0_0_1_n_n.lhsIdx (ix2 p q) ((contrEquiv1 dot_S128x16384_S16384x256_S128x256_1_0_0_1_n_n 16384 rfl rfl).symm k) = ix2 p k := funext fun ax => Fin.ext (by
    match ax with
    | ⟨0, _⟩ => exact lhs_axis0 _ _
    | ⟨1, _⟩ => exact (lhs_axis1 _ _).trans hk)
  have er : dot_S128x16384_S16384x256_S128x256_1_0_0_1_n_n.rhsIdx (ix2 p q) ((contrEquiv1 dot_S128x16384_S16384x256_S128x256_1_0_0_1_n_n 16384 rfl rfl).symm k) = ix2 k q := funext fun ax => Fin.ext (by
    match ax with
    | ⟨0, _⟩ => exact (rhs_axis0 _ _).trans hk
    | ⟨1, _⟩ => exact rhs_axis1 _ _)
  rw [el, er]

/-- What the body stores at (p, q) of its block, from the two loaded blocks. -/
theorem payload_apply (x0 : Vec Ideal S128x16384 .f32) (x1 : Vec Ideal S16384x256 .bf16) (p : Fin 128) (q : Fin 256) :
    k1_pay1 (F := Ideal) x0 x1 (ix2 p q) = ∑ k : Fin 16384, x0 (ix2 p k) * x1 (ix2 k q) := by
  unfold k1_pay1
  rw [product_apply, shapeCast_self]
  rfl

/-- So if the adjacency block's row p is row r of an array `A` and the h-block is `H`, the stored value at (p, q) is
    the aggregation of those arrays at (r, q). -/
theorem payload_eq_agg (x0 : Vec Ideal S128x16384 .f32) (x1 : Vec Ideal S16384x256 .bf16)
    (A : (⟨2, ![16384, 16384]⟩ : Shape).Idx → EReal) (H : (⟨2, ![16384, 256]⟩ : Shape).Idx → EReal)
    (p : Fin 128) (q : Fin 256) (r : Fin 16384)
    (h0 : ∀ k : Fin 16384, x0 (ix2 p k) = A (ix2 r k)) (h1 : x1 = H) :
    k1_pay1 (F := Ideal) x0 x1 (ix2 p q) = agg A H (ix2 r q) := by
  subst h1
  rw [payload_apply, agg_apply]
  simp only [h0]

/-! ## The blocks at a grid point -/

theorem hz2 : (![0, 0] : Fin 2 → Nat) = fun _ => 0 := funext fun a => by fin_cases a <;> rfl

/-- The printed index maps over the 128 points: the adjacency window and the output window move down the rows with the
    point, the window on the projected array stays at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 128 := Nat.lt_of_lt_of_eq t.isLt N_1

/-- The array row that row p of point t's block is. -/
def row (t : Fin cfg1.N) (p : Fin 128) : Fin 16384 := ⟨t.val * 128 + p.val, by have := point_lt t; have := p.isLt; omega⟩

variable (V : (c : Dev nD) → (b : Ref sig .tc) → Buf (Elt Ideal) ((c : Thread nD τ).loc b))

/-- The two input blocks at point t, at their literal types. -/
abbrev ablk (c : Dev nD) (t : Fin cfg1.N) : Vec Ideal S128x16384 .f32 := iblk1 V c 0 t
abbrev hblk (c : Dev nD) (t : Fin cfg1.N) : Vec Ideal S16384x256 .bf16 := iblk1 V c 1 t

/-- Row p of the adjacency block is row `row t p` of the adjacency. -/
theorem ablk_apply (c : Dev nD) (t : Fin cfg1.N) (p : Fin 128) (k : Fin 16384) :
    ablk V c t (ix2 p k) = V c main_arg1 (ix2 (row t p) k) := by
  show V c main_arg1 (((cfg1.win 0).blk t).view.emb (ix2 p k)) = _
  obtain ⟨e0, e1, -⟩ := idx_facts t
  refine congrArg _ (funext fun a => Fin.ext ?_)
  match a with
  | ⟨0, _⟩ => show win1_0.index t (0 : Fin 2) * 128 + 1 * p.val = t.val * 128 + p.val; rw [e0]; omega
  | ⟨1, _⟩ => show win1_0.index t (1 : Fin 2) * 16384 + 1 * k.val = k.val; rw [e1]; omega

/-- The h-block is the projected array. -/
theorem hblk_eq (c : Dev nD) (t : Fin cfg1.N) : hblk V c t = V c main_v0 := by
  funext y
  show V c main_v0 (((cfg1.win 1).blk t).view.emb y) = _
  obtain ⟨-, -, e0, e1, -⟩ := idx_facts t
  refine congrArg _ (funext fun a => Fin.ext ?_)
  match a with
  | ⟨0, _⟩ => show win1_1.index t (0 : Fin 2) * 16384 + 1 * (y 0).val = (y 0).val; rw [e0]; omega
  | ⟨1, _⟩ => show win1_1.index t (1 : Fin 2) * 256 + 1 * (y 1).val = (y 1).val; rw [e1]; omega

/-- Entry (p, q) of the output block at point t sits at (row t p, q) of the result array. -/
theorem out_emb (t : Fin cfg1.N) (p : Fin 128) (q : Fin 256) :
    ((cfg1.win 2).blk t).view.emb (ix2 p q) = ix2 (row t p) q := by
  obtain ⟨-, -, -, -, e0, e1⟩ := idx_facts t
  refine funext fun a => Fin.ext ?_
  match a with
  | ⟨0, _⟩ => show win1_2.index t (0 : Fin 2) * 128 + 1 * p.val = t.val * 128 + p.val; rw [e0]; omega
  | ⟨1, _⟩ => show win1_2.index t (1 : Fin 2) * 256 + 1 * q.val = q.val; rw [e1]; omega

/-! ## What a point writes back, and the array after the region -/

set_option maxRecDepth 200000 in
/-- Point t writes back block t of the aggregation of the arrays the region was entered with. -/
theorem flushed_eq (c : Dev nD) (t : Fin cfg1.N) :
    (dat1 V c).flushed 2 t
      = ((cfg1.win 2).blk t).view.read (Elt Ideal) (agg (V c main_arg1) (V c main_v0)) := by
  show (cfg1.win 2).cut (grid1.coords t) ((dat1 V c).after 2 t) = _
  rw [after1_2]
  unfold out1_2
  rw [View.canon_unit_zero hz2]
  simp only [View.ld_unit_zero (S := S128x16384) hz2, View.ld_unit_zero (S := S16384x256) hz2]
  funext j
  obtain ⟨p, q, rfl⟩ : ∃ (p : Fin 128) (q : Fin 256), j = ix2 p q := ⟨j 0, j 1, eq_ix2 j⟩
  show k1_pay1 (F := Ideal) (ablk V c t) (hblk V c t) (ix2 p q)
    = agg (V c main_arg1) (V c main_v0) (((cfg1.win 2).blk t).view.emb (ix2 p q))
  rw [out_emb]
  exact payload_eq_agg (ablk V c t) (hblk V c t) (V c main_arg1) (V c main_v0) p q (row t p)
    (fun k => ablk_apply V c t p k) (hblk_eq V c t)

/-- An index of the result array lies in point t's block iff each coordinate lies in the block's range. -/
theorem mem_blk (t : Fin cfg1.N) (i : S16384x256.Idx) :
    i ∈ ((cfg1.win 2).blk t).view.set ↔ ∀ a : Fin 2, win1_2.index t a * S128x256.size a ≤ (i a).val ∧ (i a).val < win1_2.index t a * S128x256.size a + S128x256.size a := by
  show i ∈ ((View.whole main_v1).slice (win1_2.rect t)).set ↔ _
  rw [View.set_slice_whole, Rect.mem_set_unit]
  exact Iff.rfl

/-- Every row is in some point's block: row r in block r / 128. -/
theorem cover (i : S16384x256.Idx) : ∃ t : Fin cfg1.N, (cfg1.win 2).flush t = true ∧ i ∈ ((cfg1.win 2).blk t).view.set := by
  have hi0 : (i 0).val < 16384 := (i 0).isLt
  have hi1 : (i 1).val < 256 := (i 1).isLt
  have ht : (i 0).val / 128 < cfg1.N := by rw [show cfg1.N = 128 from N_1]; omega
  obtain ⟨-, -, -, -, e0, e1⟩ := idx_facts ⟨(i 0).val / 128, ht⟩
  refine ⟨⟨(i 0).val / 128, ht⟩, flush1_2 _, ?_⟩
  rw [mem_blk]
  intro a
  match a with
  | ⟨0, _⟩ =>
    show win1_2.index ⟨(i 0).val / 128, ht⟩ (0 : Fin 2) * 128 ≤ (i 0).val ∧ (i 0).val < win1_2.index ⟨(i 0).val / 128, ht⟩ (0 : Fin 2) * 128 + 128
    rw [e0]; show (i 0).val / 128 * 128 ≤ (i 0).val ∧ (i 0).val < (i 0).val / 128 * 128 + 128; omega
  | ⟨1, _⟩ =>
    show win1_2.index ⟨(i 0).val / 128, ht⟩ (1 : Fin 2) * 256 ≤ (i 1).val ∧ (i 1).val < win1_2.index ⟨(i 0).val / 128, ht⟩ (1 : Fin 2) * 256 + 256
    rw [e1]; omega

/-- The result array after the region is the aggregation of the arrays the region was entered with. -/
theorem final (c : Dev nD) :
    (dat1 V c).arrAt 2 cfg1.N = agg (V c main_arg1) (V c main_v0) :=
  (dat1 V c).arrAt_eq_of_cover 2 _ (fun t _ => flushed_eq V c t) cover

end Cert.KernelIdeal.Aggregate

end
-- ==== Proof.KernelValue.lean ====
/-
  The idealized kernel's result, the two regions composed.

  The second region is entered with the adjacency as launched (the first region does not touch it) and with the
  projected array at what the first region left there, `proj x W b` of the launch arguments; it leaves the result array
  at the aggregation of those two. The final state holds that array, and the arguments as launched.
-/
import proofs.«154886_j58222576664706_1_alg».proof.Proof.KernelRun
import proofs.«154886_j58222576664706_1_alg».proof.Proof.LinearBlock
import proofs.«154886_j58222576664706_1_alg».proof.Proof.AggBlock

set_option maxRecDepth 16384

noncomputable section

namespace Cert.KernelIdeal.Result

open Cert.KernelIdeal Cert.KernelIdeal.Gen Cert.MessagePassing
open Idealize.ShloMosaic Idealize.ShloMosaic.TcCoe Idealize.SL.Sem

variable (m : (ℓ : Loc nD τ sig) → Buf (Elt Ideal) ℓ) (ρ : Dev nD → PrngReg)

/-- The second region finds the adjacency as launched: no window of the first region is on it. -/
theorem entry_adj (c : Dev nD) : V1 m ρ c main_arg1 = m ((c : Thread nD τ).loc main_arg1) :=
  calc V1 m ρ c main_arg1
    _ = W0 m ρ c (Proc.devRef .tc main_arg1) := W1_of_ne m ρ c main_arg1 (by decide)
    _ = m ((c : Thread nD τ).loc main_arg1) := rfl

/-- The second region finds the projected array at the projection of the launch arguments: what the first region's
    write-backs left in it. -/
theorem entry_proj (c : Dev nD) :
    V1 m ρ c main_v0
      = proj (m ((c : Thread nD τ).loc main_arg0)) (m ((c : Thread nD τ).loc main_arg2)) (m ((c : Thread nD τ).loc main_arg3)) :=
  calc V1 m ρ c main_v0
    _ = (dat0 (V0 m ρ) c).arrAt 3 cfg0.N := W1_arr m ρ c 3
    _ = proj (V0 m ρ c main_arg0) (V0 m ρ c main_arg2) (V0 m ρ c main_arg3) := Linear.final (V0 m ρ) c
    _ = _ := rfl

/-- The result array at the last boundary: the aggregation, over the launched adjacency, of the projection of the
    launched features, weight and bias. -/
theorem result (c : Dev nD) :
    W2 m ρ c (Proc.devRef .tc main_v1)
      = agg (m ((c : Thread nD τ).loc main_arg1))
          (proj (m ((c : Thread nD τ).loc main_arg0)) (m ((c : Thread nD τ).loc main_arg2)) (m ((c : Thread nD τ).loc main_arg3))) :=
  calc W2 m ρ c (Proc.devRef .tc main_v1)
    _ = (dat1 (V1 m ρ) c).arrAt 2 cfg1.N := W2_arr m ρ c 2
    _ = agg (V1 m ρ c main_arg1) (V1 m ρ c main_v0) := Aggregate.final (V1 m ρ) c
    _ = _ := by rw [entry_adj, entry_proj]

/-- Every weakly fair execution of the idealized kernel ends with the result array at that function of the launch
    arguments, and the arguments unchanged. -/
theorem run : θ_run defs (onTc (τ := τ) (main (F := Ideal))) ⟨m, fun _ => 0, ρ⟩ (fun r => ∀ c : Dev nD,
      r.2.mem ((c.tc : Thread nD τ).loc main_v1)
        = agg (m ((c : Thread nD τ).loc main_arg1))
            (proj (m ((c : Thread nD τ).loc main_arg0)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Named.run_named m ρ)

end Cert.KernelIdeal.Result

end
-- ==== Proof.lean ====
/-
  The simplicial message-passing block, kernel against reference, over the extended reals.

  Both programs compute `out[n, e] = ∑ k, adj[n, k] · ((∑ d, x[k, d] · W[e, d]) + b[e])`. The kernel does it in two
  pipelined regions: the projection `h = x · Wᵀ + b` in eight blocks of 2048 rows (Proof/LinearBlock.lean), then the
  aggregation `adj · h` in 128 blocks of 128 rows against the whole of `h` (Proof/AggBlock.lean); composed over the run
  of the two regions (Proof/KernelRun.lean, Proof/KernelValue.lean) the result array is `agg adj (proj x W b)` of the
  launch arguments (Proof/Spec.lean). The reference is two `dot_general`s around a broadcast bias, the same function read
  index by index (Proof/RefIsSpec.lean). The two sides are the same sums in the same arrangement: no term crosses a sum,
  so the finiteness of the inputs is never used, and the idealization rewrote nothing (the kernel's changes of float
  format are the identity on extended reals), so `preserves` has no conjunct.
-/
import proofs.«154886_j58222576664706_1_alg».proof.Defs
import proofs.«154886_j58222576664706_1_alg».proof.Proof.Gen.Kernel
import proofs.«154886_j58222576664706_1_alg».proof.Proof.Gen.Kernel.Skeleton
import proofs.«154886_j58222576664706_1_alg».proof.Proof.Gen.Kernel.Launch
import proofs.«154886_j58222576664706_1_alg».proof.Proof.Gen.Kernel.Points
import proofs.«154886_j58222576664706_1_alg».proof.Proof.Gen.Kernel.Frame
import proofs.«154886_j58222576664706_1_alg».proof.Proof.Gen.KernelIdeal
import proofs.«154886_j58222576664706_1_alg».proof.Proof.Gen.KernelIdeal.Skeleton
import proofs.«154886_j58222576664706_1_alg».proof.Proof.Gen.KernelIdeal.Launch
import proofs.«154886_j58222576664706_1_alg».proof.Proof.Gen.KernelIdeal.Points
import proofs.«154886_j58222576664706_1_alg».proof.Proof.Gen.KernelIdeal.Frame
import proofs.«154886_j58222576664706_1_alg».proof.Proof.Gen.ReferenceIdeal
import proofs.«154886_j58222576664706_1_alg».proof.Proof.Gen.ReferenceIdeal.Run
import proofs.«154886_j58222576664706_1_alg».proof.Proof.Gen.ReferenceIdeal.Read
import proofs.«154886_j58222576664706_1_alg».proof.Proof.Gen.Pre_finite_inputs
import proofs.«154886_j58222576664706_1_alg».proof.Proof.Spec
import proofs.«154886_j58222576664706_1_alg».proof.Proof.RefIsSpec
import proofs.«154886_j58222576664706_1_alg».proof.Proof.KernelValue
import Idealize.ShloMosaic.Adequacy
import Idealize.ShloMosaic.Init

noncomputable section

namespace Cert.Proof

open Idealize.ShloMosaic Idealize.ShloMosaic.TcCoe Idealize.SL.Sem Cert.MessagePassing

/-- The word-level kernel runs and keeps its arguments: the two regions' frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at
    `agg adj (proj x W b)`: the kernel by its two regions, the reference by its last stage read at an index. -/
theorem algebraic : Cert.algebraic_KernelIdeal_ReferenceIdeal := by
  intro m ρ m' ρ' _ hagree
  refine ⟨fun c => agg (m ((c.tc : Thread Cert.KernelIdeal.nD Cert.KernelIdeal.τ).loc Cert.KernelIdeal.main_arg1))
      (proj (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
